-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x1 .f32) (main_arg6 : FVec F S256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S64x512x256 .f32) (main_arg1 : IVec S64x512x512 32) (main_arg2 : FVec F S256x1 .f32) (main_arg3 : FVec F S256x1 .f32) (main_arg4 : FVec F S256x1 .f32) (main_arg5 : FVec F S256x1 .f32) (main_arg6 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_v13 main_v16
-- ==== Kernel.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S1x256 : Shape := ⟨2, ![1, 256]⟩
abbrev S256x512 : Shape := ⟨2, ![256, 512]⟩

abbrev nBuf : Space → Nat
  | .hbm => 8
  | .vmem => 11
  | .smem => 0
  | _ => 0

abbrev bufTy : (tb : Table) → Fin (tcTables nBuf tb) → BufTy
  | .hbm, ⟨0, _⟩ => ⟨S64x512x256, .f32⟩
  | .hbm, ⟨1, _⟩ => ⟨S64x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S64x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x512, .i32⟩
  | .local _ .vmem, ⟨3, _⟩ => ⟨S1x512x512, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256, .f32⟩
  | .local _ .vmem, ⟨9, _⟩ => ⟨S1x512x256, .f32⟩
  | .local _ .vmem, ⟨10, _⟩ => ⟨S1x512x256, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S256_S1x256 : S256.ShapeCasts S1x256
  broadcasts_S1x256_S512x256 : S1x256.Broadcasts S512x256
  transposes_S512x256_p1_0_S256x512 : S512x256.Transposes [1, 0] S256x512
  inb_S256_S256_0 : ∀ a, (![0] : Fin 1 → Nat) a + S256.size a ≤ S256.size a
  h_S256 : 0 < S256.numel
  shapeCasts_S512x256_S1x512x256 : S512x256.ShapeCasts S1x512x256
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S64x512x256.size a
  hwx0_0 : ∀ i : grid0.Coords, EltTy.bits .f32 = 32 ∨ (Rect.block (s := S64x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .i32 = 32 ∨ (Rect.block (s := S64x512x512) S1x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S64x512x256.size a
  hwx0_7 : ∀ i : grid0.Coords, EltTy.bits .f32 = 32 ∨ (Rect.block (s := S64x512x256) S1x512x256.size (cc0_transform_7 i) (hinb0_7 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S1x1x256 : Shape := ⟨3, ![1, 1, 256]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S64x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S256, .f32⟩
  | .hbm, ⟨8, _⟩ => ⟨S1x1x256, .f32⟩
  | .hbm, ⟨9, _⟩ => ⟨S64x512x256, .f32⟩
  | .hbm, ⟨10, _⟩ => ⟨S64x512x256, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .i1⟩
  | .hbm, ⟨15, _⟩ => ⟨S_, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S256, .f32⟩
  | .hbm, ⟨20, _⟩ => ⟨S1x1x256, .f32⟩
  | .hbm, ⟨21, _⟩ => ⟨S64x512x256, .f32⟩
  | .hbm, ⟨22, _⟩ => ⟨S64x512x256, .f32⟩
  | .hbm, ⟨23, _⟩ => ⟨S64x512x512, .f32⟩
  | .hbm, ⟨24, _⟩ => ⟨S_, .f32⟩
  | .hbm, ⟨25, _⟩ => ⟨S64x512x512, .f32⟩
  | .hbm, ⟨26, _⟩ => ⟨S64x512x512, .i1⟩
  | .hbm, ⟨27, _⟩ => ⟨S_, .f32⟩
  | .hbm, ⟨28, _⟩ => ⟨S64x512x512, .f32⟩
  | .hbm, ⟨29, _⟩ => ⟨S64x512x512, .f32⟩
  | .hbm, ⟨30, _⟩ => ⟨S64x512x512, .f32⟩
  | .hbm, ⟨31, _⟩ => ⟨S256, .f32⟩
  | .hbm, ⟨32, _⟩ => ⟨S1x1x256, .f32⟩
  | .hbm, ⟨33, _⟩ => ⟨S64x512x256, .f32⟩
  | .hbm, ⟨34, _⟩ => ⟨S64x512x256, .f32⟩
  | .hbm, ⟨35, _⟩ => ⟨S64x512x512, .f32⟩
  | .hbm, ⟨36, _⟩ => ⟨S_, .f32⟩
  | .hbm, ⟨37, _⟩ => ⟨S64x512x512, .f32⟩
  | .hbm, ⟨38, _⟩ => ⟨S64x512x512, .i1⟩
  | .hbm, ⟨39, _⟩ => ⟨S_, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S256, .f32⟩
  | .hbm, ⟨44, _⟩ => ⟨S1x1x256, .f32⟩
  | .hbm, ⟨45, _⟩ => ⟨S64x512x256, .f32⟩
  | .hbm, ⟨46, _⟩ => ⟨S64x512x256, .f32⟩
  | .hbm, ⟨47, _⟩ => ⟨S64x512x512, .f32⟩
  | .hbm, ⟨48, _⟩ => ⟨S_, .f32⟩
  | .hbm, ⟨49, _⟩ => ⟨S64x512x512, .f32⟩
  | .hbm, ⟨50, _⟩ => ⟨S64x512x512, .i1⟩
  | .hbm, ⟨51, _⟩ => ⟨S_, .f32⟩
  | .hbm, ⟨52, _⟩ => ⟨S64x512x512, .f32⟩
  | .hbm, ⟨53, _⟩ => ⟨S64x512x512, .f32⟩
  | .hbm, ⟨54, _⟩ => ⟨S64x512x512, .f32⟩
  | .hbm, ⟨55, _⟩ => ⟨S_, .i32⟩
  | .hbm, ⟨56, _⟩ => ⟨S64x512x512, .i32⟩
  | .hbm, ⟨57, _⟩ => ⟨S64x512x512, .i1⟩
  | .hbm, ⟨58, _⟩ => ⟨S_, .f32⟩
  | .hbm, ⟨59, _⟩ => ⟨S64x512x512, .f32⟩
  | .hbm, ⟨60, _⟩ => ⟨S64x512x512, .f32⟩
  | .hbm, ⟨61, _⟩ => ⟨S_, .i32⟩
  | .hbm, ⟨62, _⟩ => ⟨S64x512x512, .i32⟩
  | .hbm, ⟨63, _⟩ => ⟨S64x512x512, .i1⟩
  | .hbm, ⟨64, _⟩ => ⟨S64x512x512, .f32⟩
  | .hbm, ⟨65, _⟩ => ⟨S_, .i32⟩
  | .hbm, ⟨66, _⟩ => ⟨S64x512x512, .i32⟩
  | .hbm, ⟨67, _⟩ => ⟨S64x512x512, .i1⟩
  | .hbm, ⟨68, _⟩ => ⟨S64x512x512, .f32⟩
  | .hbm, ⟨69, _⟩ => ⟨S_, .i32⟩
  | .hbm, ⟨70, _⟩ => ⟨S64x512x512, .i32⟩
  | .hbm, ⟨71, _⟩ => ⟨S64x512x512, .i1⟩
  | .hbm, ⟨72, _⟩ => ⟨S64x512x512, .f32⟩
  | .hbm, ⟨73, _⟩ => ⟨S64x512x512, .f32⟩
  | .hbm, ⟨74, _⟩ => ⟨S64x512x512, .f32⟩
  | .hbm, ⟨75, _⟩ => ⟨S_, .f32⟩
  | .hbm, ⟨76, _⟩ => ⟨S64x512x512, .f32⟩
  | .hbm, ⟨77, _⟩ => ⟨S64x512x512, .f32⟩
  | .hbm, ⟨78, _⟩ => ⟨S_, .f32⟩
  | .hbm, ⟨79, _⟩ => ⟨S64x512x512, .f32⟩
  | .hbm, ⟨80, _⟩ => ⟨S64x512x512, .f32⟩
  | .hbm, ⟨81, _⟩ => ⟨S64x512x256, .f32⟩
  | .hbm, ⟨82, _⟩ => ⟨S1x1x256, .f32⟩
  | .hbm, ⟨83, _⟩ => ⟨S64x512x256, .f32⟩
  | .hbm, ⟨84, _⟩ => ⟨S64x512x256, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_call4_v0 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  shapeCasts_S256x1_S256 : S256x1.ShapeCasts S256
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  bcast_S_S64x512x512 : S_.BroadcastsInDim S64x512x512 (![] : Fin 0 → Fin S64x512x512.rank)
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.Spec.lean ====
/-
  What both programs compute, stated once over literal shapes.

  A batch of n graphs, each with 512 nodes carrying 256 features h[b, i, ·], an integer edge label adj[b, i, j], four
  feature weightings a0 … a3 (columns [256, 1]) and a bias [256]. For one weighting a the raw score of the pair (i, j) is

      score a b i j = ∑ₖ (h[b, i, k] · a[k, 0]) · h[b, j, k],

  passed through the leaky rectifier x ↦ (x if x ≥ 0 else c · x) with c the f32 word nearest 0.2. The edge label picks which
  of the four rectified scores is the pair's pre-activation (label 4 over 3 over 2 over 1, the most negative finite f32
  where no label matches); the pair's weight is the logistic function of it, and the result is

      out[b, i, d] = ∑ⱼ logistic (gate b i j) · h[b, j, d] + bias[d].

  Everything is over the extended reals; the two literal words are kept as words (both programs carry the same ones), so
  nothing here evaluates them. The batch count n is a parameter: a kernel invocation sees one graph (n = 1), the whole
  program all 64, and `aggAt_of_block` says the former is the restriction of the latter to one graph.
-/
import Idealize.ShloMosaic.PureOps.Ideal
import Idealize.ShloMosaic.PureOps.Ideal.Laws
import Idealize.ShloMosaic.Lib.ValueIdx

noncomputable section

namespace Cert.PatternAgg

open Idealize.ShloMosaic Idealize.ShloMosaic.ValueIdx

/-- Node features of n graphs. -/
abbrev Feat (n : Nat) : Shape := ⟨3, ![n, 512, 256]⟩
/-- Edge labels of n graphs. -/
abbrev Adj (n : Nat) : Shape := ⟨3, ![n, 512, 512]⟩
/-- One feature weighting, a column. -/
abbrev Col : Shape := ⟨2, ![256, 1]⟩
/-- The bias, one entry per feature. -/
abbrev Bias : Shape := ⟨1, ![256]⟩

variable {n : Nat}

/-- The raw score of the node pair (i, j) of graph b under the weighting a. -/
def score (h : (Feat n).Idx → EReal) (a : Col.Idx → EReal) (b : Fin n) (i j : Fin 512) : EReal :=
  ∑ k : Fin 256, h (ix3 b i k) * a (ix2 k 0) * h (ix3 b j k)

/-- The leaky rectifier: x where x ≥ 0, else the slope word times x. -/
def leaky (x : EReal) : EReal :=
  Scalar.select (Ideal.cmp .oge x (Ideal.ofBits .f32 0x00000000#32)) x (Ideal.ofBits .f32 0x3E4CCCCD#32 * x)

/-- The pre-activation of the pair (i, j): the rectified score its edge label selects, the floor word where none does. -/
def gate (h : (Feat n).Idx → EReal) (adj : (Adj n).Idx → BitVec 32) (a0 a1 a2 a3 : Col.Idx → EReal)
    (b : Fin n) (i j : Fin 512) : EReal :=
  Scalar.select (IntOp.cmpi .eq (adj (ix3 b i j)) 4#32) (leaky (score h a3 b i j))
    (Scalar.select (IntOp.cmpi .eq (adj (ix3 b i j)) 3#32) (leaky (score h a2 b i j))
      (Scalar.select (IntOp.cmpi .eq (adj (ix3 b i j)) 2#32) (leaky (score h a1 b i j))
        (Scalar.select (IntOp.cmpi .eq (adj (ix3 b i j)) 1#32) (leaky (score h a0 b i j))
          (Ideal.ofBits .f32 0xFF7FFFFF#32))))

/-- The aggregated feature d of node i of graph b. -/
def aggAt (h : (Feat n).Idx → EReal) (adj : (Adj n).Idx → BitVec 32) (a0 a1 a2 a3 : Col.Idx → EReal)
    (bias : Bias.Idx → EReal) (b : Fin n) (i : Fin 512) (d : Fin 256) : EReal :=
  (∑ j : Fin 512, Ideal.logistic (gate h adj a0 a1 a2 a3 b i j) * h (ix3 b j d)) + bias (ix1 d)

/-- The whole result array. -/
def agg (h : (Feat n).Idx → EReal) (adj : (Adj n).Idx → BitVec 32) (a0 a1 a2 a3 : Col.Idx → EReal)
    (bias : Bias.Idx → EReal) : (Feat n).Idx → EReal :=
  fun y => aggAt h adj a0 a1 a2 a3 bias (y 0) (y 1) (y 2)

theorem agg_apply (h : (Feat n).Idx → EReal) (adj : (Adj n).Idx → BitVec 32) (a0 a1 a2 a3 : Col.Idx → EReal)
    (bias : Bias.Idx → EReal) (b : Fin n) (i : Fin 512) (d : Fin 256) :
    agg h adj a0 a1 a2 a3 bias (ix3 b i d) = aggAt h adj a0 a1 a2 a3 bias b i d := rfl

/-- One graph cut out of the batch gives that graph's rows of the batch's result: the result at graph b reads the features
    and labels of graph b only. -/
theorem aggAt_of_block {N : Nat} (h : (Feat N).Idx → EReal) (adj : (Adj N).Idx → BitVec 32)
    (hb : (Feat 1).Idx → EReal) (adjb : (Adj 1).Idx → BitVec 32) (a0 a1 a2 a3 : Col.Idx → EReal)
    (bias : Bias.Idx → EReal) (b : Fin N)
    (hh : ∀ (i : Fin 512) (k : Fin 256), hb (ix3 0 i k) = h (ix3 b i k))
    (ha : ∀ i j : Fin 512, adjb (ix3 0 i j) = adj (ix3 b i j)) (i : Fin 512) (d : Fin 256) :
    aggAt hb adjb a0 a1 a2 a3 bias 0 i d = aggAt h adj a0 a1 a2 a3 bias b i d := by
  unfold aggAt gate score
  simp only [hh, ha]

/-- The same for whole arrays: an index y of the one-graph result and an index z of the batch's result with graph b and the
    same node and feature read the same value. -/
theorem agg_of_block {N : Nat} (h : (Feat N).Idx → EReal) (adj : (Adj N).Idx → BitVec 32)
    (hb : (Feat 1).Idx → EReal) (adjb : (Adj 1).Idx → BitVec 32) (a0 a1 a2 a3 : Col.Idx → EReal)
    (bias : Bias.Idx → EReal) (b : Fin N)
    (hh : ∀ (i : Fin 512) (k : Fin 256), hb (ix3 0 i k) = h (ix3 b i k))
    (ha : ∀ i j : Fin 512, adjb (ix3 0 i j) = adj (ix3 b i j))
    (y : (Feat 1).Idx) (z : (Feat N).Idx)
    (hz0 : (z 0).val = b.val) (hz1 : (z 1).val = (y 1).val) (hz2 : (z 2).val = (y 2).val) :
    agg hb adjb a0 a1 a2 a3 bias y = agg h adj a0 a1 a2 a3 bias z := by
  obtain ⟨u, i, d, rfl⟩ : ∃ (u : Fin 1) (i : Fin 512) (d : Fin 256), y = ix3 u i d := ⟨y 0, y 1, y 2, eq_ix3 y⟩
  obtain ⟨b', i', d', rfl⟩ : ∃ (b' : Fin N) (i' : Fin 512) (d' : Fin 256), z = ix3 b' i' d' := ⟨z 0, z 1, z 2, eq_ix3 z⟩
  obtain rfl : b' = b := Fin.ext hz0
  obtain rfl : i' = i := Fin.ext hz1
  obtain rfl : d' = d := Fin.ext hz2
  obtain rfl : u = 0 := Subsingleton.elim _ _
  exact aggAt_of_block h adj hb adjb a0 a1 a2 a3 bias b' hh ha i' d'

/-- The f32 word of one is the number one. -/
theorem ofBits_one_f32 : Ideal.ofBits .f32 0x3F800000#32 = 1 := by
  simp [Ideal.ofBits, Ideal.ieee, -EReal.coe_mul]; norm_num

/-- The logistic function spelt out in host operations, one over one plus the exponential of the negation, with both ones
    given as f32 words, is the logistic function. -/
theorem host_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  have h1 : FloatOps.ofBits (F := Ideal) .f32 0x3F800000#32 = (1 : EReal) := ofBits_one_f32
  rw [h1]
  rfl

end Cert.PatternAgg

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelBlock.lean ====
/-
  One invocation of the kernel body computes the specification for one graph.

  The body sees one graph's features (a [1, 512, 256] block), its edge labels (a [1, 512, 512] block), the four weighting
  columns and the bias. Its stored value, read at (0, i, d), is `aggAt` at batch count one:

  * each score matrix is a matrix product, into a zero accumulator, of (features times a weighting, the column laid along
    the feature axis and repeated down the rows) with the transposed features, so its entry (i, j) is the sum over the
    feature index k of (h[i, k] · a[k, 0]) · h[j, k]; the narrowing of the operands to sixteen bits is the identity on
    extended reals;
  * the rectifier, the selections on the edge label and the logistic function act entry by entry;
  * the final matrix product with the features, plus the bias repeated down the rows, is the aggregation.
-/
import proofs.«167575_j72129680769654_1_alg».proof.Proof.Gen.KernelIdeal.Skeleton
import proofs.«167575_j72129680769654_1_alg».proof.Proof.Spec
import proofs.«167575_j72129680769654_1_alg».proof.Proof.LibPlainDot
import Idealize.ShloMosaic.Lib.Pipeline.Value
import Idealize.ShloMosaic.Lib.ValueIdx
import Idealize.ShloMosaic.Lib.ValueLayout

noncomputable section

namespace Cert.PatternAgg.Kernel

open Idealize.ShloMosaic Idealize.ShloMosaic.ValueIdx
open Cert.KernelIdeal Cert.KernelIdeal.Gen Cert.PatternAgg

/-- A column [n, 1] cast to a vector of length n reads, at k, the column's entry (k, 0). -/
theorem shapeCast_col_vec_apply {α : Type} {n : ℕ} (w : (⟨2, ![n, 1]⟩ : Shape).Idx → α)
    (h : (⟨2, ![n, 1]⟩ : Shape).ShapeCasts ⟨1, ![n]⟩) (k : Fin n) :
    shapeCast ⟨1, ![n]⟩ w h (ix1 k) = w (ix2 k (0 : Fin 1)) :=
  shapeCast_apply w h _ _ (by
    rw [Shape.rowMajor_val_two, Shape.rowMajor_val_one]
    show k.val * 1 + 0 = k.val
    rw [Nat.mul_one, Nat.add_zero])

/-! ## The two matrix products' index facts -/

local notation "D₁" => dot_S512x256_S256x512_S512x512_1_0_0_1_n_n
local notation "D₂" => dot_S512x512_S512x256_S512x256_1_0_0_1_n_n

theorem d1_lhs0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
theorem d1_lhs1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem d1_rhs0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem d1_rhs1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

theorem d2_lhs0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl
theorem d2_lhs1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem d2_rhs0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem d2_rhs1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-! ## The body's pieces at an index -/

variable (v0 : Vec Ideal S1x512x256 .f32) (v3 : Vec Ideal S1x512x512 .i32) (a a0 a1 a2 a3 : Vec Ideal S256x1 .f32)
  (v73 : Vec Ideal S256 .f32)

/-- The graph's features as a matrix: entry (i, k) is the block's entry (0, i, k). -/
theorem feat_apply (i : Fin 512) (k : Fin 256) : k0_pay2 v0 (ix2 i k) = v0 (ix3 0 i k) :=
  shapeCast_1ab_ab_apply v0 shapeCasts_S1x512x256_S512x256 i k

/-- The same after narrowing, which changes nothing on extended reals. -/
theorem featn_apply (i : Fin 512) (k : Fin 256) : k0_pay3 v0 (ix2 i k) = v0 (ix3 0 i k) :=
  feat_apply v0 i k

/-- The graph's edge labels as a matrix. -/
theorem label_apply (i j : Fin 512) : k0_pay4 v3 (ix2 i j) = v3 (ix3 0 i j) :=
  shapeCast_1ab_ab_apply v3 shapeCasts_S1x512x512_S512x512 i j

/-- A weighting column laid along the feature axis and repeated down the rows reads, at (i, k), the column's entry k. -/
theorem weighting_apply (i : Fin 512) (k : Fin 256) :
    broadcastTo S512x256 (shapeCast S1x256 (shapeCast S256 a shapeCasts_S256x1_S256) shapeCasts_S256_S1x256)
      broadcasts_S1x256_S512x256 (ix2 i k) = a (ix2 k 0) := by
  rw [broadcastTo_1b_ab_apply, shapeCast_a_1a_apply, shapeCast_col_vec_apply]

/-- The bias repeated down the rows reads, at (i, d), its entry d. -/
theorem bias_apply (i : Fin 512) (d : Fin 256) :
    broadcastTo S512x256 (shapeCast S1x256 v73 shapeCasts_S256_S1x256) broadcasts_S1x256_S512x256 (ix2 i d) = v73 (ix1 d) := by
  rw [broadcastTo_1b_ab_apply, shapeCast_a_1a_apply]

/-- A score matrix is the raw score of the one graph. -/
theorem score_apply (i j : Fin 512) : k0_pay7 v0 a (ix2 i j) = score (n := 1) v0 a 0 i j := by
  unfold k0_pay7
  refine (Cert.Lib.matmul_plain_apply dot_S512x256_S256x512_S512x512_1_0_0_1_n_n rfl rfl d1_lhs0 d1_lhs1 d1_rhs0 d1_rhs1
    none _ _ i j).trans ?_
  unfold score
  refine Finset.sum_congr rfl fun k _ => ?_
  show (k0_pay2 v0 (ix2 i k) * broadcastTo S512x256 (shapeCast S1x256 (shapeCast S256 a shapeCasts_S256x1_S256)
      shapeCasts_S256_S1x256) broadcasts_S1x256_S512x256 (ix2 i k))
    * transpose S256x512 [1, 0] (k0_pay3 v0) transposes_S512x256_p1_0_S256x512 (ix2 k j) = _
  rw [feat_apply, weighting_apply, transpose_ix2_apply, featn_apply]

/-- The rectified score matrix, as the body forms it: a selection on the sign of the score matrix. -/
theorem rectified_form : k0_pay5 v0 a
    = select (cmpf .oge (k0_pay7 v0 a) (broadcast S512x512 (Scalar.ofBits .f32 0x00000000#32))) (k0_pay7 v0 a)
        (mulf (broadcast S512x512 (Scalar.ofBits .f32 0x3E4CCCCD#32)) (k0_pay7 v0 a)) := rfl

theorem rectified_apply (i j : Fin 512) : k0_pay5 v0 a (ix2 i j) = leaky (score (n := 1) v0 a 0 i j) := by
  rw [rectified_form]
  show Scalar.select (FloatOps.cmpf .oge (k0_pay7 v0 a (ix2 i j)) (Scalar.ofBits .f32 0x00000000#32)) (k0_pay7 v0 a (ix2 i j))
    (FloatOps.mulf (Scalar.ofBits .f32 0x3E4CCCCD#32) (k0_pay7 v0 a (ix2 i j))) = _
  rw [score_apply]
  rfl

/-- The matrix of pre-activations: the selections on the edge label over the four rectified score matrices. -/
def gateMat : FVec Ideal S512x512 .f32 :=
  select (cmpi .eq (k0_pay4 v3) (broadcast S512x512 4#32)) (k0_pay5 v0 a3)
    (select (cmpi .eq (k0_pay4 v3) (broadcast S512x512 3#32)) (k0_pay5 v0 a2)
      (select (cmpi .eq (k0_pay4 v3) (broadcast S512x512 2#32)) (k0_pay5 v0 a1)
        (select (cmpi .eq (k0_pay4 v3) (broadcast S512x512 1#32)) (k0_pay5 v0 a0)
          (broadcast S512x512 (Scalar.ofBits .f32 0xFF7FFFFF#32)))))

/-- The matrix of weights: the logistic function of the pre-activations, narrowed. -/
def weightMat : FVec Ideal S512x512 .bf16 :=
  truncf .bf16 (logistic (gateMat v0 v3 a0 a1 a2 a3)) bitsLt_bf16_f32

/-- The whole stored value, as the body forms it from the four rectified score matrices: the second is the first one's
    function at another weighting, the third and fourth are rectified inside the last stretch of the body. -/
theorem stored_form :
    k0_pay1 (k0_pay2 v0) (k0_pay3 v0) (k0_pay4 v3) (k0_pay5 v0 a0) (k0_pay6 v0 a1) (k0_pay7 v0 a2)
        (Scalar.ofBits .f32 0x00000000#32) a3 v73
      = shapeCast S1x512x256
          (addf
            (matmul dot_S512x512_S512x256_S512x256_1_0_0_1_n_n none (weightMat v0 v3 a0 a1 a2 a3)
              (k0_pay3 v0) (constant S512x256 .f32 0x00000000#32))
            (broadcastTo S512x256 (shapeCast S1x256 v73 shapeCasts_S256_S1x256) broadcasts_S1x256_S512x256))
          shapeCasts_S512x256_S1x512x256 := rfl

theorem gateMat_apply (i j : Fin 512) :
    gateMat v0 v3 a0 a1 a2 a3 (ix2 i j) = gate (n := 1) v0 v3 a0 a1 a2 a3 0 i j := by
  show Scalar.select (IntOp.cmpi .eq (k0_pay4 v3 (ix2 i j)) 4#32) (k0_pay5 v0 a3 (ix2 i j))
        (Scalar.select (IntOp.cmpi .eq (k0_pay4 v3 (ix2 i j)) 3#32) (k0_pay5 v0 a2 (ix2 i j))
          (Scalar.select (IntOp.cmpi .eq (k0_pay4 v3 (ix2 i j)) 2#32) (k0_pay5 v0 a1 (ix2 i j))
            (Scalar.select (IntOp.cmpi .eq (k0_pay4 v3 (ix2 i j)) 1#32) (k0_pay5 v0 a0 (ix2 i j))
              (Scalar.ofBits .f32 0xFF7FFFFF#32)))) = _
  rw [label_apply, rectified_apply, rectified_apply, rectified_apply, rectified_apply]
  rfl

theorem weightMat_apply (i j : Fin 512) :
    weightMat v0 v3 a0 a1 a2 a3 (ix2 i j) = Ideal.logistic (gate (n := 1) v0 v3 a0 a1 a2 a3 0 i j) := by
  show Ideal.logistic (gateMat v0 v3 a0 a1 a2 a3 (ix2 i j)) = _
  rw [gateMat_apply]

/-- The sum of the weighted features plus the bias, at (i, d). -/
theorem summed_apply (i : Fin 512) (d : Fin 256) :
    addf (matmul dot_S512x512_S512x256_S512x256_1_0_0_1_n_n none (weightMat v0 v3 a0 a1 a2 a3)
        (k0_pay3 v0) (constant S512x256 .f32 0x00000000#32))
      (broadcastTo S512x256 (shapeCast S1x256 v73 shapeCasts_S256_S1x256) broadcasts_S1x256_S512x256) (ix2 i d)
      = aggAt (n := 1) v0 v3 a0 a1 a2 a3 v73 0 i d := by
  refine (congrArg₂ (· + ·)
    (Cert.Lib.matmul_plain_apply dot_S512x512_S512x256_S512x256_1_0_0_1_n_n rfl rfl d2_lhs0 d2_lhs1 d2_rhs0 d2_rhs1
      none (weightMat v0 v3 a0 a1 a2 a3) (k0_pay3 v0) i d)
    (bias_apply v73 i d)).trans ?_
  unfold aggAt
  refine congrArg (· + v73 (ix1 d)) (Finset.sum_congr rfl fun j _ => ?_)
  rw [weightMat_apply, featn_apply]

/-- THE BODY'S VALUE: what one invocation stores, read at (0, i, d), is the specification for its one graph. -/
theorem stored_apply (i : Fin 512) (d : Fin 256) :
    k0_pay1 (k0_pay2 v0) (k0_pay3 v0) (k0_pay4 v3) (k0_pay5 v0 a0) (k0_pay6 v0 a1) (k0_pay7 v0 a2)
        (Scalar.ofBits .f32 0x00000000#32) a3 v73 (ix3 0 i d)
      = aggAt (n := 1) v0 v3 a0 a1 a2 a3 v73 0 i d := by
  rw [stored_form]
  exact (shapeCast_ab_1ab_apply _ shapeCasts_S512x256_S1x512x256 0 i d).trans (summed_apply v0 v3 a0 a1 a2 a3 v73 i d)

/-- The same as one equation of arrays over the block's literal shape. -/
theorem stored_eq :
    k0_pay1 (k0_pay2 v0) (k0_pay3 v0) (k0_pay4 v3) (k0_pay5 v0 a0) (k0_pay6 v0 a1) (k0_pay7 v0 a2)
        (Scalar.ofBits .f32 0x00000000#32) a3 v73
      = agg (n := 1) v0 v3 a0 a1 a2 a3 v73 := by
  funext y
  obtain ⟨u, i, d, rfl⟩ : ∃ (u : Fin 1) (i : Fin 512) (d : Fin 256), y = ix3 u i d := ⟨y 0, y 1, y 2, eq_ix3 y⟩
  obtain rfl : u = 0 := Subsingleton.elim _ _
  exact stored_apply v0 v3 a0 a1 a2 a3 v73 i d

end Cert.PatternAgg.Kernel

end
-- ==== Proof.ArrayValue.lean ====
/-
  From what each grid point writes to the whole result array.

  The grid has 64 points; point t stages graph t's features and edge labels (blocks [1, 512, 256] and [1, 512, 512] at
  block index (t, 0, 0)), the four weighting columns and the bias whole (block index zero), and writes back block (t, 0, 0)
  of the result. What it writes is the specification for one graph, of graph t's blocks, which is graph t's part of the
  specification for all 64 graphs; the 64 blocks tile the result array, so the array ends holding the specification.
-/
import proofs.«167575_j72129680769654_1_alg».proof.Proof.Gen.KernelIdeal.Value
import proofs.«167575_j72129680769654_1_alg».proof.Proof.KernelBlock

noncomputable section

namespace Cert.PatternAgg.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.PatternAgg

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block index of every window at every grid point, decided over the 64 points: the features, the edge labels and
    the result move with the point along their first axis; the weightings and the bias stay at block zero. -/
theorem block_index : ∀ t : Fin cfg0.N, t.val < 64
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- Every graph is some point's. -/
theorem point_of_graph : ∀ q : Fin 64, ∃ t : Fin cfg0.N, win0_7.index t = ![q.val, 0, 0] :=
  (by decide +kernel : ∀ q : Fin 64, ∃ t : Fin grid0.N, win0_7.index t = ![q.val, 0, 0])

/-- The graph a grid point works on. -/
def graphOf (t : Fin cfg0.N) : Fin 64 := ⟨t.val, (block_index t).1⟩

/-! ## The input blocks at a point -/

/-- Point t's feature block is graph t's features. -/
theorem feat_block (c : Dev nD) (t : Fin cfg0.N) (i : Fin 512) (k : Fin 256) :
    iblk m c 0 t (ix3 0 i k) = V m c main_arg0 (ix3 (graphOf t) i k) := by
  obtain ⟨-, e0, e1, e2, -⟩ := block_index t
  show V m c main_arg0 (((cfg0.win 0).blk t).view.emb (ix3 0 i k)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 256 + 1 * k.val = k.val; omega

/-- Point t's edge-label block is graph t's labels. -/
theorem label_block (c : Dev nD) (t : Fin cfg0.N) (i j : Fin 512) :
    iblk m c 1 t (ix3 0 i j) = V m c main_arg1 (ix3 (graphOf t) i j) := by
  obtain ⟨-, -, -, -, e0, e1, e2, -⟩ := block_index t
  show V m c main_arg1 (((cfg0.win 1).blk t).view.emb (ix3 0 i j)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 512 + 1 * j.val = j.val; omega

/-- Each weighting's block is the whole column, at every point. -/
theorem col_block2 (c : Dev nD) (t : Fin cfg0.N) : (iblk m c 2 t : Vec Ideal S256x1 .f32) = V m c main_arg2 := by
  obtain ⟨-, -, -, -, -, -, -, e0, e1, -⟩ := block_index t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 256 + 1 * (y 0).val = (y 0).val; omega
  | ⟨1, _⟩ => show win0_2.index t (1 : Fin 2) * 1 + 1 * (y 1).val = (y 1).val; omega
theorem col_block3 (c : Dev nD) (t : Fin cfg0.N) : (iblk m c 3 t : Vec Ideal S256x1 .f32) = V m c main_arg3 := by
  obtain ⟨-, -, -, -, -, -, -, -, -, e0, e1, -⟩ := block_index t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega
theorem col_block4 (c : Dev nD) (t : Fin cfg0.N) : (iblk m c 4 t : Vec Ideal S256x1 .f32) = V m c main_arg4 := by
  obtain ⟨-, -, -, -, -, -, -, -, -, -, -, e0, e1, -⟩ := block_index t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega
theorem col_block5 (c : Dev nD) (t : Fin cfg0.N) : (iblk m c 5 t : Vec Ideal S256x1 .f32) = V m c main_arg5 := by
  obtain ⟨-, -, -, -, -, -, -, -, -, -, -, -, -, e0, e1, -⟩ := block_index t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 1 + 1 * (y 1).val = (y 1).val; omega

/-- The bias's block is the whole bias, at every point. -/
theorem bias_block (c : Dev nD) (t : Fin cfg0.N) : (iblk m c 6 t : Vec Ideal S256 .f32) = V m c main_arg6 := by
  obtain ⟨-, -, -, -, -, -, -, -, -, -, -, -, -, -, -, e0, -⟩ := block_index t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 256 + 1 * (y 0).val = (y 0).val; omega

/-! ## What a point writes back, and the array after the run -/

/-- WHAT POINT t WRITES BACK is block t of the specification of the argument arrays. -/
theorem flushed_eq (c : Dev nD) (t : Fin cfg0.N) :
    (dats m 0 c).flushed 7 t = ((cfg0.win 7).blk t).view.read (Elt Ideal)
      (agg (n := 64) (V m c main_arg0) (V m c main_arg1) (V m c main_arg2) (V m c main_arg3) (V m c main_arg4)
        (V m c main_arg5) (V m c main_arg6)) := by
  rw [Cert.KernelIdeal.Value.flushed7]
  unfold out0_7
  rw [View.canon_unit_zero zeros3]
  simp only [View.ld_unit_zero (S := S1x512x256) zeros3, View.ld_unit_zero (S := S1x512x512) zeros3,
    View.ld_unit_zero (S := S256x1) zeros2, View.ld_unit_zero (S := S256) zeros1]
  rw [Kernel.stored_eq, col_block2, col_block3, col_block4, col_block5, bias_block]
  obtain ⟨-, -, -, -, -, -, -, -, -, -, -, -, -, -, -, -, e0, e1, e2⟩ := block_index t
  funext j
  have hj0 : (j 0).val < 1 := (j 0).isLt
  exact agg_of_block (V m c main_arg0) (V m c main_arg1) (iblk m c 0 t) (iblk m c 1 t) (V m c main_arg2)
    (V m c main_arg3) (V m c main_arg4) (V m c main_arg5) (V m c main_arg6) (graphOf t)
    (feat_block m c t) (label_block m c t) j (((cfg0.win 7).blk t).view.emb j)
    (by show win0_7.index t (0 : Fin 3) * 1 + 1 * (j 0).val = t.val; omega)
    (by show win0_7.index t (1 : Fin 3) * 512 + 1 * (j 1).val = (j 1).val; omega)
    (by show win0_7.index t (2 : Fin 3) * 256 + 1 * (j 2).val = (j 2).val; omega)

/-- An index of the result array is in point t's block iff each coordinate is in the block's range on its axis. -/
theorem mem_block (t : Fin cfg0.N) (i : S64x512x256.Idx) :
    i ∈ ((cfg0.win 7).blk t).view.set ↔ ∀ a : Fin 3, win0_7.index t a * S1x512x256.size a ≤ (i a).val
      ∧ (i a).val < win0_7.index t a * S1x512x256.size a + S1x512x256.size a := by
  show i ∈ ((View.whole main_v0).slice (win0_7.rect t)).set ↔ _
  rw [View.set_slice_whole, Rect.mem_set_unit]
  exact Iff.rfl

/-- The 64 blocks tile the result array: index (b, i, d) is in the block of graph b's point. -/
theorem covered (i : S64x512x256.Idx) :
    ∃ t : Fin cfg0.N, (cfg0.win 7).flush t = true ∧ i ∈ ((cfg0.win 7).blk t).view.set := by
  have hi0 : (i 0).val < 64 := (i 0).isLt
  have hi1 : (i 1).val < 512 := (i 1).isLt
  have hi2 : (i 2).val < 256 := (i 2).isLt
  obtain ⟨t, ht⟩ := point_of_graph ⟨(i 0).val, hi0⟩
  have q0 : win0_7.index t (0 : Fin 3) = (i 0).val := congrFun ht 0
  have q1 : win0_7.index t (1 : Fin 3) = 0 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 256 ≤ (i 2).val ∧ (i 2).val < win0_7.index t (2 : Fin 3) * 256 + 256; omega

/-- THE RESULT ARRAY after the run is the specification of the argument arrays. -/
theorem final (c : Dev nD) : (dats m 0 c).arrAt 7 cfg0.N
    = agg (n := 64) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (dats m 0 c).arrAt_eq_of_cover 7 _ (fun t _ => flushed_eq m c t) covered

/-- The kernel program's run, with the result array named. -/
theorem run : θ_run defs (onTc (τ := τ) (main (F := Ideal))) ⟨m, fun _ => 0, ρ⟩ fun r => ∀ c : Dev nD,
      r.2.mem ((c : Thread nD τ).loc main_v0)
        = agg (n := 64) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.PatternAgg.Whole

end
-- ==== Proof.RefValue.lean ====
/-
  The reference program computes the specification: its final stage, read index by index, is `agg` of its seven arguments.

  Read from the result backwards: the last addition is the batched product of the weight array with the features, plus the
  bias broadcast along its only axis; the weight array is one over one plus the exponential of the negated pre-activation,
  which is the logistic function; the pre-activation is the chain of four selections on the edge label; each rectified
  score is a selection on the sign of a batched product contracting the feature axis, whose left operand is the features
  times a weighting broadcast from its column. The four rectified scores are one function applied to four weightings.
-/
import proofs.«167575_j72129680769654_1_alg».proof.Proof.Gen.ReferenceIdeal.Read
import proofs.«167575_j72129680769654_1_alg».proof.Proof.Spec

noncomputable section

namespace Cert.PatternAgg.Ref

open Idealize.ShloMosaic Idealize.ShloMosaic.ValueIdx
open Cert.ReferenceIdeal Cert.ReferenceIdeal.Read Cert.PatternAgg

variable (x0 : (⟨S64x512x256, .f32⟩ : BufTy).Contents (Elt Ideal)) (x1 : (⟨S64x512x512, .i32⟩ : BufTy).Contents (Elt Ideal))
  (x2 x3 x4 x5 : (⟨S256x1, .f32⟩ : BufTy).Contents (Elt Ideal)) (x6 : (⟨S256, .f32⟩ : BufTy).Contents (Elt Ideal))

/-- A weighting broadcast over graphs and nodes reads, at (b, i, k), the column's entry k. -/
theorem weighting_apply (b : Fin 64) (i : Fin 512) (k : Fin 256) :
    val_main_v2 (F := Ideal) x2 (ix3 b i k) = x2 (ix2 k 0) := by
  rw [val_main_v2_apply, val_main_v1_apply, val_main_v0_apply]
  refine congrArg x2 (funext fun a => Fin.ext ?_)
  match a with
  | ⟨0, _⟩ => exact Nat.div_one _
  | ⟨1, _⟩ => rfl

/-- The batched product contracting the feature axis is the raw score. -/
theorem score_apply (b : Fin 64) (i j : Fin 512) :
    val_main_v4 (F := Ideal) x0 x2 (ix3 b i j) = score x0 x2 b i j := by
  rw [val_main_v4_apply]
  unfold score
  refine Finset.sum_congr rfl fun k _ => ?_
  have el : lidx_main_v4 (ix3 b i j) k = ix3 b i k := funext fun a => Fin.ext (by
    match a with
    | ⟨0, _⟩ => rfl
    | ⟨1, _⟩ => rfl
    | ⟨2, _⟩ => rfl)
  have er : ridx_main_v4 (ix3 b i j) k = ix3 b j k := funext fun a => Fin.ext (by
    match a with
    | ⟨0, _⟩ => rfl
    | ⟨1, _⟩ => rfl
    | ⟨2, _⟩ => rfl)
  rw [el, er, val_main_v3_apply, weighting_apply]
  rfl

/-- The selection on the score's sign is the leaky rectifier of the score. -/
theorem rectified_apply (b : Fin 64) (i j : Fin 512) :
    val_main_v9 (F := Ideal) x0 x2 (ix3 b i j) = leaky (score x0 x2 b i j) := by
  rw [val_main_v9_apply, val_main_v6_apply, val_main_v8_apply, val_main_v5_apply, val_main_v7_apply, val_main_cst_apply,
    val_main_cst_0_apply, score_apply]
  rfl

/-- The second, third and fourth rectified scores are the first one's function, at the other weightings. -/
theorem rectified2_eq : val_main_v19 (F := Ideal) x0 x3 = val_main_v9 (F := Ideal) x0 x3 := rfl
theorem rectified3_eq : val_main_v29 (F := Ideal) x0 x4 = val_main_v9 (F := Ideal) x0 x4 := rfl
theorem rectified4_eq : val_main_v39 (F := Ideal) x0 x5 = val_main_v9 (F := Ideal) x0 x5 := rfl

/-- The chain of selections on the edge label is the pre-activation. -/
theorem gate_apply (b : Fin 64) (i j : Fin 512) :
    val_main_v51 (F := Ideal) x0 x1 x2 x3 x4 x5 (ix3 b i j) = gate x0 x1 x2 x3 x4 x5 b i j := by
  rw [val_main_v51_apply, val_main_v48_apply, val_main_v45_apply, val_main_v42_apply,
    val_main_v50_apply, val_main_v47_apply, val_main_v44_apply, val_main_v41_apply,
    val_main_v49_apply, val_main_v46_apply, val_main_v43_apply, val_main_v40_apply,
    val_main_c_10_apply, val_main_c_9_apply, val_main_c_8_apply, val_main_c_apply,
    val_main_call4_v0_apply, val_main_cst_7_apply,
    rectified4_eq, rectified3_eq, rectified2_eq,
    rectified_apply, rectified_apply, rectified_apply, rectified_apply]
  rfl

/-- One over one plus the exponential of the negated pre-activation is its logistic. -/
theorem weight_apply (b : Fin 64) (i j : Fin 512) :
    val_main_v57 (F := Ideal) x0 x1 x2 x3 x4 x5 (ix3 b i j) = Ideal.logistic (gate x0 x1 x2 x3 x4 x5 b i j) := by
  rw [val_main_v57_apply, val_main_v55_apply, val_main_v53_apply, val_main_v52_apply, val_main_v56_apply, val_main_v54_apply,
    val_main_cst_12_apply, val_main_cst_11_apply, gate_apply]
  exact host_logistic _

/-- The bias broadcast over graphs and nodes reads, at (b, i, d), its entry d. -/
theorem bias_apply (b : Fin 64) (i : Fin 512) (d : Fin 256) :
    val_main_v60 (F := Ideal) x6 (ix3 b i d) = x6 (ix1 d) := by
  rw [val_main_v60_apply, val_main_v59_apply]
  refine congrArg x6 (funext fun a => Fin.ext ?_)
  match a with
  | ⟨0, _⟩ => rfl

/-- The reference's result at (b, i, d). -/
theorem result_apply (b : Fin 64) (i : Fin 512) (d : Fin 256) :
    val_main_v61 (F := Ideal) x0 x1 x2 x3 x4 x5 x6 (ix3 b i d) = aggAt x0 x1 x2 x3 x4 x5 x6 b i d := by
  rw [val_main_v61_apply, val_main_v58_apply, bias_apply]
  unfold aggAt
  refine congrArg (· + x6 (ix1 d)) (Finset.sum_congr rfl fun k _ => ?_)
  have el : lidx_main_v58 (ix3 b i d) k = ix3 b i k := funext fun a => Fin.ext (by
    match a with
    | ⟨0, _⟩ => rfl
    | ⟨1, _⟩ => rfl
    | ⟨2, _⟩ => rfl)
  have er : ridx_main_v58 (ix3 b i d) k = ix3 b k d := funext fun a => Fin.ext (by
    match a with
    | ⟨0, _⟩ => rfl
    | ⟨1, _⟩ => rfl
    | ⟨2, _⟩ => rfl)
  rw [el, er, weight_apply]

/-- The reference's result array is the specification of its arguments. -/
theorem result_eq : val_main_v61 (F := Ideal) x0 x1 x2 x3 x4 x5 x6 = agg x0 x1 x2 x3 x4 x5 x6 := by
  funext y
  obtain ⟨b, i, d, rfl⟩ : ∃ (b : Fin 64) (i : Fin 512) (d : Fin 256), y = ix3 b i d := ⟨y 0, y 1, y 2, eq_ix3 y⟩
  exact result_apply x0 x1 x2 x3 x4 x5 x6 b i d

end Cert.PatternAgg.Ref

end
-- ==== Proof.lean ====
/-
  The certificate: a graph-attention aggregation kernel against its array-language reference, over the extended reals.

  Both programs compute, for 64 graphs of 512 nodes with 256 features, out[b, i, d] = ∑ⱼ logistic (gate b i j) · h[b, j, d]
  + bias[d], where gate picks by the edge label one of four leaky-rectified scores ∑ₖ (h[b, i, k] · a[k, 0]) · h[b, j, k]
  (Proof/Spec.lean). The kernel does it one graph per grid point, with matrix products into zero accumulators on operands
  narrowed to sixteen bits (the identity on extended reals) and one logistic operation; the reference with batched
  products and the logistic spelt as one over one plus the exponential of the negation. No algebraic law is needed beyond
  reading both sides index by index: the sums run over the same index in the same grouping, so the finiteness of the
  inputs is never used.

  * the three frames: the two kernel programs' frames are generated; the reference's is its generated run with the result
    dropped;
  * the idealization rewrote nothing, so `preserves` is trivial;
  * the value claim: the kernel program's result array is the specification of its arguments (Proof/KernelBlock.lean for
    one grid point, Proof/ArrayValue.lean for the 64 blocks), and so is the reference's (Proof/RefValue.lean).
-/
import proofs.«167575_j72129680769654_1_alg».proof.Defs
import proofs.«167575_j72129680769654_1_alg».proof.Proof.Gen.Kernel
import proofs.«167575_j72129680769654_1_alg».proof.Proof.Gen.Kernel.Frame
import proofs.«167575_j72129680769654_1_alg».proof.Proof.Gen.KernelIdeal
import proofs.«167575_j72129680769654_1_alg».proof.Proof.Gen.KernelIdeal.Frame
import proofs.«167575_j72129680769654_1_alg».proof.Proof.Gen.KernelIdeal.Value
import proofs.«167575_j72129680769654_1_alg».proof.Proof.Gen.ReferenceIdeal
import proofs.«167575_j72129680769654_1_alg».proof.Proof.Gen.ReferenceIdeal.Run
import proofs.«167575_j72129680769654_1_alg».proof.Proof.Gen.ReferenceIdeal.Read
import proofs.«167575_j72129680769654_1_alg».proof.Proof.Gen.Pre_finite_inputs
import proofs.«167575_j72129680769654_1_alg».proof.Proof.ArrayValue
import proofs.«167575_j72129680769654_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the specification of those arguments in their
    result arrays. -/
theorem algebraic : Cert.algebraic_KernelIdeal_ReferenceIdeal := by
  intro m ρ m' ρ' _ hagree
  refine ⟨_, Cert.PatternAgg.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v61_eq, Cert.PatternAgg.Ref.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
